-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1784 : Shape := ⟨2, ![2048, 1784]⟩
abbrev S2048 : Shape := ⟨1, ![2048]⟩
abbrev S1784 : Shape := ⟨1, ![1784]⟩
abbrev S_ : Shape := ⟨0, ![]⟩

class Facts : Prop where
  bcast_S_S2048x1784 : S_.BroadcastsInDim S2048x1784 (![] : Fin 0 → Fin S2048x1784.rank)
  reducesTo_S2048x1784_S_d0_1 : S2048x1784.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1784 : S_.BroadcastsInDim S1784 (![] : Fin 0 → Fin S1784.rank)
  reducesTo_S1784_S_d0 : S1784.ReducesTo [0] S_

variable [Facts]

def fn {F : FTy → Type} [FloatOps F] (main_arg0 : FVec F S2048x1784 .f32) (main_arg1 : IVec S2048 32) (main_arg2 : IVec S1784 32) : IVec S_ 1 :=
  let main_v0 : FVec F S2048x1784 .f32 := Host.absf main_arg0
  let main_cst : FVec F S_ .f32 := constant S_ .f32 0x7F800000#32
  let main_v1 : FVec F S2048x1784 .f32 := broadcastInDim S2048x1784 ![] bcast_S_S2048x1784 main_cst
  let main_v2 : IVec S2048x1784 1 := cmpf .olt main_v0 main_v1
  let main_c : IVec S_ 1 := constantI S_ 1 1#1
  let main_v3 : IVec S_ 1 := (fun x v => Host.reduce IntOp.andi x v reducesTo_S2048x1784_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v3 main_v6
  let main_c_2 : IVec S_ 32 := constantI S_ 32 1784#32
  let main_v8 : IVec S2048 32 := broadcastInDim S2048 ![] bcast_S_S2048 main_c_2
  let main_v9 : IVec S2048 1 := cmpi .slt main_arg1 main_v8
  let main_c_3 : IVec S_ 1 := constantI S_ 1 1#1
  let main_v10 : IVec S_ 1 := (fun x v => Host.reduce IntOp.andi x v reducesTo_S2048_S_d0 h_S_) main_v9 main_c_3
  let main_v11 : IVec S_ 1 := andi main_v7 main_v10
  let main_c_4 : IVec S_ 32 := constantI S_ 32 0#32
  let main_v12 : IVec S1784 32 := broadcastInDim S1784 ![] bcast_S_S1784 main_c_4
  let main_v13 : IVec S1784 1 := cmpi .sge main_arg2 main_v12
  let main_c_5 : IVec S_ 1 := constantI S_ 1 1#1
  let main_v14 : IVec S_ 1 := (fun x v => Host.reduce IntOp.andi x v reducesTo_S1784_S_d0 h_S_) main_v13 main_c_5
  let main_v15 : IVec S_ 1 := andi main_v11 main_v14
  main_v15
-- ==== Kernel.lean ====
abbrev S2048x1784 : Shape := ⟨2, ![2048, 1784]⟩
abbrev S2048 : Shape := ⟨1, ![2048]⟩
abbrev S1784 : Shape := ⟨1, ![1784]⟩
abbrev S1x1784 : Shape := ⟨2, ![1, 1784]⟩
abbrev S2048x1 : Shape := ⟨2, ![2048, 1]⟩
abbrev S_ : Shape := ⟨0, ![]⟩
abbrev S256x1784 : Shape := ⟨2, ![256, 1784]⟩
abbrev S256x1 : Shape := ⟨2, ![256, 1]⟩
abbrev S256 : Shape := ⟨1, ![256]⟩

abbrev nBuf : Space → Nat
  | .hbm => 33
  | .vmem => 12
  | .smem => 0
  | _ => 0

abbrev bufTy : (tb : Table) → Fin (tcTables nBuf tb) → BufTy
  | .hbm, ⟨0, _⟩ => ⟨S2048x1784, .f32⟩
  | .hbm, ⟨1, _⟩ => ⟨S2048, .i32⟩
  | .hbm, ⟨2, _⟩ => ⟨S1784, .i32⟩
  | .hbm, ⟨3, _⟩ => ⟨S1784, .f32⟩
  | .hbm, ⟨4, _⟩ => ⟨S1x1784, .f32⟩
  | .hbm, ⟨5, _⟩ => ⟨S1784, .f32⟩
  | .hbm, ⟨6, _⟩ => ⟨S1x1784, .f32⟩
  | .hbm, ⟨7, _⟩ => ⟨S2048x1, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S2048, .f32⟩
  | .hbm, ⟨17, _⟩ => ⟨S2048x1, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S256x1784, .f32⟩
  | .local _ .vmem, ⟨1, _⟩ => ⟨S256x1784, .f32⟩
  | .local _ .vmem, ⟨2, _⟩ => ⟨S256x1, .i32⟩
  | .local _ .vmem, ⟨3, _⟩ => ⟨S256x1, .i32⟩
  | .local _ .vmem, ⟨4, _⟩ => ⟨S1x1784, .f32⟩
  | .local _ .vmem, ⟨5, _⟩ => ⟨S1x1784, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S2048x1784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1784_S1x1784 : S1784.ShapeCasts S1x1784
  shapeCasts_S2048_S2048x1 : S2048.ShapeCasts S2048x1
  bcast_S_S2048 : S_.BroadcastsInDim S2048 (![] : Fin 0 → Fin S2048.rank)
  bcast_S2048_S2048x1_0 : S2048.BroadcastsInDim S2048x1 (![0] : Fin 1 → Fin S2048x1.rank)
  inb_S256x1784_S256x1784_0_0 : ∀ a, (![0, 0] : Fin 2 → Nat) a + S256x1784.size a ≤ S256x1784.size a
  h_S256x1784 : 0 < S256x1784.numel
  reduces_S256x1784_S256 : S256x1784.Reduces [1] S256
  shapeCasts_S256_S256x1 : S256.ShapeCasts S256x1
  broadcasts_S256x1_S256x1784 : S256x1.Broadcasts S256x1784
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x1784_d1_w32 : S1x1784.Iotas .tc 32 [1]
  broadcasts_S1x1784_S256x1784 : S1x1784.Broadcasts S256x1784
  inb_S1x1784_S1x1784_0_0 : ∀ a, (![0, 0] : Fin 2 → Nat) a + S1x1784.size a ≤ S1x1784.size a
  h_S1x1784 : 0 < S1x1784.numel
  shapeCasts_S1x1784_S1x1784 : S1x1784.ShapeCasts S1x1784
  reducesTo_S2048x1_S_d0_1 : S2048x1.ReducesTo [0, 1] S_
  h_S_ : 0 < S_.numel
  gather_S1784_S2048x1_S2048_n_0_n_n_0_1_1_wf : GatherDims.WF S1784 S2048x1 S2048 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1784.size a ≤ S2048x1784.size a
  hwx0_0 : ∀ i : grid0.Coords, EltTy.bits .f32 = 32 ∨ (Rect.block (s := S2048x1784) S256x1784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1784.size a ≤ S1x1784.size a
  hwx0_2 : ∀ i : grid0.Coords, EltTy.bits .f32 = 32 ∨ (Rect.block (s := S1x1784) S1x1784.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1784.size a ≤ S1x1784.size a
  hwx0_3 : ∀ i : grid0.Coords, EltTy.bits .f32 = 32 ∨ (Rect.block (s := S1x1784) S1x1784.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)

variable [Facts₀]

def gather_S1784_S2048x1_S2048_n_0_n_n_0_1_1 : GatherDims S1784 S2048x1 S2048 where
  offsetDims := []
  collapsedSliceDims := [0]
  operandBatchingDims := []
  startIndicesBatchingDims := []
  startIndexMap := [0]
  indexVectorDim := 1
  sliceSizes := ![1]
  wf := gather_S1784_S2048x1_S2048_n_0_n_n_0_1_1_wf

abbrev win0_0 : Pipeline.Window sig grid0 :=
  Pipeline.Window.ofSpec (Memref.whole main_arg0) S256x1784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1784.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1784.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x1784 : Shape := ⟨2, ![2048, 1784]⟩
abbrev S2048 : Shape := ⟨1, ![2048]⟩
abbrev S1784 : Shape := ⟨1, ![1784]⟩
abbrev S1x1784 : Shape := ⟨2, ![1, 1784]⟩
abbrev S1784x1 : Shape := ⟨2, ![1784, 1]⟩
abbrev S1784x1784 : Shape := ⟨2, ![1784, 1784]⟩
abbrev S_ : Shape := ⟨0, ![]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1784, .f32⟩
  | .hbm, ⟨1, _⟩ => ⟨S2048, .i32⟩
  | .hbm, ⟨2, _⟩ => ⟨S1784, .i32⟩
  | .hbm, ⟨3, _⟩ => ⟨S1784, .f32⟩
  | .hbm, ⟨4, _⟩ => ⟨S1x1784, .f32⟩
  | .hbm, ⟨5, _⟩ => ⟨S1784x1, .f32⟩
  | .hbm, ⟨6, _⟩ => ⟨S1784x1784, .f32⟩
  | .hbm, ⟨7, _⟩ => ⟨S1784x1784, .f32⟩
  | .hbm, ⟨8, _⟩ => ⟨S1784x1784, .f32⟩
  | .hbm, ⟨9, _⟩ => ⟨S1784x1, .f32⟩
  | .hbm, ⟨10, _⟩ => ⟨S1x1784, .f32⟩
  | .hbm, ⟨11, _⟩ => ⟨S1784x1784, .f32⟩
  | .hbm, ⟨12, _⟩ => ⟨S1784x1784, .f32⟩
  | .hbm, ⟨13, _⟩ => ⟨S1784x1784, .i1⟩
  | .hbm, ⟨14, _⟩ => ⟨S_, .f32⟩
  | .hbm, ⟨15, _⟩ => ⟨S1784x1784, .f32⟩
  | .hbm, ⟨16, _⟩ => ⟨S1784x1784, .f32⟩
  | .hbm, ⟨17, _⟩ => ⟨S_, .f32⟩
  | .hbm, ⟨18, _⟩ => ⟨S_, .f32⟩
  | .hbm, ⟨19, _⟩ => ⟨S1784x1784, .f32⟩
  | .hbm, ⟨20, _⟩ => ⟨S1784x1784, .f32⟩
  | .hbm, ⟨21, _⟩ => ⟨S2048x1, .i32⟩
  | .hbm, ⟨22, _⟩ => ⟨S1x1784, .i32⟩
  | .hbm, ⟨23, _⟩ => ⟨S2048x1784, .i32⟩
  | .hbm, ⟨24, _⟩ => ⟨S2048x1784, .i32⟩
  | .hbm, ⟨25, _⟩ => ⟨S2048x1784, .i1⟩
  | .hbm, ⟨26, _⟩ => ⟨S2048x1784, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x1784, .f32⟩
  | .hbm, ⟨31, _⟩ => ⟨S2048x1784, .f32⟩
  | .hbm, ⟨32, _⟩ => ⟨S2048x1784, .f32⟩
  | .hbm, ⟨33, _⟩ => ⟨S_, .f32⟩
  | .hbm, ⟨34, _⟩ => ⟨S2048x1784, .f32⟩
  | .hbm, ⟨35, _⟩ => ⟨S2048x1784, .f32⟩
  | .hbm, ⟨36, _⟩ => ⟨S2048x1784, .f32⟩
  | .hbm, ⟨37, _⟩ => ⟨S2048x1784, .f32⟩
  | .hbm, ⟨38, _⟩ => ⟨S2048x1784, .f32⟩
  | .hbm, ⟨39, _⟩ => ⟨S_, .f32⟩
  | .hbm, ⟨40, _⟩ => ⟨S2048x1784, .f32⟩
  | .hbm, ⟨41, _⟩ => ⟨S2048x1784, .f32⟩
  | .hbm, ⟨42, _⟩ => ⟨S2048x1784, .f32⟩
  | .hbm, ⟨43, _⟩ => ⟨S2048x1784, .f32⟩
  | .hbm, ⟨44, _⟩ => ⟨S_, .f32⟩
  | .hbm, ⟨45, _⟩ => ⟨S2048x1784, .f32⟩
  | .hbm, ⟨46, _⟩ => ⟨S2048x1784, .f32⟩
  | .hbm, ⟨47, _⟩ => ⟨S2048x1784, .f32⟩
  | .hbm, ⟨48, _⟩ => ⟨S2048x1784, .f32⟩
  | .hbm, ⟨49, _⟩ => ⟨S_, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S2048x1784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S1784_S1x1784_1 : S1784.BroadcastsInDim S1x1784 (![1] : Fin 1 → Fin S1x1784.rank)
  bcast_S1784_S1784x1_0 : S1784.BroadcastsInDim S1784x1 (![0] : Fin 1 → Fin S1784x1.rank)
  bcast_S1x1784_S1784x1784_0_1 : S1x1784.BroadcastsInDim S1784x1784 (![0, 1] : Fin 2 → Fin S1784x1784.rank)
  bcast_S1784x1_S1784x1784_0_1 : S1784x1.BroadcastsInDim S1784x1784 (![0, 1] : Fin 2 → Fin S1784x1784.rank)
  bcast_S_S1784x1784 : S_.BroadcastsInDim S1784x1784 (![] : Fin 0 → Fin S1784x1784.rank)
  bcast_S2048_S2048x1_0 : S2048.BroadcastsInDim S2048x1 (![0] : Fin 1 → Fin S2048x1.rank)
  bcast_S2048x1_S2048x1784_0_1 : S2048x1.BroadcastsInDim S2048x1784 (![0, 1] : Fin 2 → Fin S2048x1784.rank)
  bcast_S1x1784_S2048x1784_0_1 : S1x1784.BroadcastsInDim S2048x1784 (![0, 1] : Fin 2 → Fin S2048x1784.rank)
  reducesTo_S2048x1784_S2048_d1 : S2048x1784.ReducesTo [1] S2048
  h_S_ : 0 < S_.numel
  bcast_S_S2048x1784 : S_.BroadcastsInDim S2048x1784 (![] : Fin 0 → Fin S2048x1784.rank)
  reducesTo_S2048_S_d0 : S2048.ReducesTo [0] S_
  dot_S2048x1784_S1784x1784_S2048x1784_1_1_0_0_n_n_wf : DotDims.WF S2048x1784 S1784x1784 S2048x1784 [1] [1] [0] [0] [] []

variable [Facts₀]

def dot_S2048x1784_S1784x1784_S2048x1784_1_1_0_0_n_n : DotDims S2048x1784 S1784x1784 S2048x1784 where
  lhsContracting := [1]
  rhsContracting := [1]
  lhsNonContracting := [0]
  rhsNonContracting := [0]
  lhsBatch := []
  rhsBatch := []
  wf := dot_S2048x1784_S1784x1784_S2048x1784_1_1_0_0_n_n_wf

class Facts : Prop extends Facts₀ where

variable [Facts]
-- ==== Proof.PreFacts.lean ====
/-
  What the precondition says of the integer inputs.

  The printed precondition is the conjunction (`andi` of one-bit words) of four `jnp.all`s: every logit is finite,
  every target word is at least 0 and below 1784 as a signed integer, every count word is at least 0 as a signed integer.
  Each `all` is a reduce by `and` from the word 1, so the precondition being 1 gives each compared word, one index at a
  time. A signed word that is at least 0 and below 1784 has a natural value below 1784.
-/
import proofs.«410336_j2078764171361_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Seesaw

open Idealize.ShloMosaic Idealize.ShloMosaic.ValueIdx

variable [Cert.Pre_finite_inputs.Facts]

/-- The precondition being the word 1 gives its three integer conjuncts one index at a time: each target word compares
    at least 0 and below 1784, each count word at least 0 (signed comparisons against the broadcast constants). -/
theorem pre_words (X : FVec Ideal Cert.Pre_finite_inputs.S2048x1784 .f32) (T : IVec Cert.Pre_finite_inputs.S2048 32)
    (N : IVec Cert.Pre_finite_inputs.S1784 32)
    (h : Cert.Pre_finite_inputs.fn (F := Ideal) X T N = fun _ => 1#1) :
    (∀ i : Cert.Pre_finite_inputs.S2048.Idx, IntOp.cmpi .sge (T i) 0#32 = 1#1) ∧
    (∀ i : Cert.Pre_finite_inputs.S2048.Idx, IntOp.cmpi .slt (T i) 1784#32 = 1#1) ∧
    (∀ i : Cert.Pre_finite_inputs.S1784.Idx, IntOp.cmpi .sge (N i) 0#32 = 1#1) := by
  -- the rank-0 shape has exactly one index
  haveI : Subsingleton Cert.Pre_finite_inputs.S_.Idx := ⟨fun a b => funext fun d => d.elim0⟩
  have h0 := congrFun h ix0
  dsimp only [Cert.Pre_finite_inputs.fn] at h0
  -- the outer conjunction: ((finite ∧ targets ≥ 0) ∧ targets < 1784) ∧ counts ≥ 0
  obtain ⟨h123, h4⟩ := IntOp.andi_eq_one.1 h0
  obtain ⟨h12, h3⟩ := IntOp.andi_eq_one.1 h123
  obtain ⟨_, h2⟩ := IntOp.andi_eq_one.1 h12
  refine ⟨fun i => ?_, fun i => ?_, fun i => ?_⟩
  · have e := Host.reduce_andi_all _ _ _ _ _ h2 i
    -- the compared word: the second operand is the scalar constant read through its broadcast
    exact e
  · have e := Host.reduce_andi_all _ _ _ _ _ h3 i
    -- the compared word: the second operand is the scalar constant read through its broadcast
    exact e
  · have e := Host.reduce_andi_all _ _ _ _ _ h4 i
    -- the compared word: the second operand is the scalar constant read through its broadcast
    exact e

/-- Under the precondition every target word, read as a natural number, is below the number of classes. -/
theorem targets_lt (X : FVec Ideal Cert.Pre_finite_inputs.S2048x1784 .f32) (T : IVec Cert.Pre_finite_inputs.S2048 32)
    (N : IVec Cert.Pre_finite_inputs.S1784 32)
    (h : Cert.Pre_finite_inputs.fn (F := Ideal) X T N = fun _ => 1#1) (b : Fin 2048) : (T (ix1 b)).toNat < 1784 := by
  obtain ⟨hge, hlt, _⟩ := pre_words X T N h
  -- signed: 0 ≤ the word and the word is below 1784; a word whose signed value is non-negative has that value unsigned
  have h1 := IntOp.cmpi_sge.1 (hge (ix1 b))
  have h2 := IntOp.cmpi_slt.1 (hlt (ix1 b))
  rw [show (0#32 : BitVec 32).toInt = 0 from by decide] at h1
  rw [show (1784#32 : BitVec 32).toInt = 1784 from by decide] at h2
  have hlt31 : 2 * (T (ix1 b)).toNat < 2 ^ 32 := BitVec.toInt_pos_iff.1 h1
  rw [BitVec.toInt_eq_toNat_of_lt hlt31] at h2
  omega

/-- Under the precondition every class count, read as a signed integer, is non-negative. -/
theorem counts_nonneg (X : FVec Ideal Cert.Pre_finite_inputs.S2048x1784 .f32) (T : IVec Cert.Pre_finite_inputs.S2048 32)
    (N : IVec Cert.Pre_finite_inputs.S1784 32)
    (h : Cert.Pre_finite_inputs.fn (F := Ideal) X T N = fun _ => 1#1) (j : Fin 1784) : 0 ≤ (N (ix1 j)).toInt := by
  obtain ⟨_, _, hN⟩ := pre_words X T N h
  have h1 := IntOp.cmpi_sge.1 (hN (ix1 j))
  rwa [show (0#32 : BitVec 32).toInt = 0 from by decide] at h1

end Cert.Seesaw

end
-- ==== Proof.RowIdentity.lean ====
/-
  The row identity behind the seesaw loss, on the extended reals.

  For one batch row with shifted logits `x`, target class `t` and class counts `n` (non-negative reals), the reference
  weighs class `j` in the target's denominator by `s t j = (n j / n t) ^ c` when `n j < n t` and by `1` otherwise, drops
  the target's own term through the one-hot mask and adds `exp (x t)` back; its row loss is the one-hot sum of
  `-log (σ + e)`, which keeps the target's entry only. The kernel folds the weight into the exponent,
  `exp (x j + c · (log (n j) - log (n t)))`, sums every class (at `j = t` the comparison `n t < n t` fails, so the term is
  `exp (x t)` itself) and takes `0 - log (σ + e)` once.

  The two agree because `exp (a + b) = exp a · exp b` on all of the extended reals with the conventions `exp ⊥ = 0`,
  `exp ⊤ = ⊤`, and because for `0 ≤ a < b` the power `(a / b) ^ c` is `exp (c · (log a - log b))`: for `a > 0` by the
  definition of the real power, and for `a = 0` both sides are `0` (`0 ^ c = 0` for `c ≠ 0`; `log 0 = ⊥`, `c · ⊥ = ⊥` for
  `c > 0`, `exp ⊥ = 0`).
-/
import Idealize.ShloMosaic.PureOps.Ideal

noncomputable section

namespace Cert.Seesaw

open Idealize.ShloMosaic

/-! ## Two laws of the exponential and the power on the extended reals -/

/-- `exp` turns sums into products everywhere on the extended reals (with `⊤ + ⊥ = ⊥` and `0 · ⊤ = 0`). -/
theorem exp_add (a b : EReal) : Ideal.exp (a + b) = Ideal.exp a * Ideal.exp b := by
  induction a using EReal.rec with
  | bot => rw [EReal.bot_add, Ideal.exp_bot, zero_mul]
  | top =>
    induction b using EReal.rec with
    | bot => rw [EReal.add_bot, Ideal.exp_bot, mul_zero]
    | top => rw [EReal.top_add_top, Ideal.exp_top, EReal.top_mul_top]
    | coe s => rw [EReal.top_add_coe, Ideal.exp_top, Ideal.exp_coe, EReal.top_mul_coe_of_pos (Real.exp_pos s)]
  | coe r =>
    induction b using EReal.rec with
    | bot => rw [EReal.add_bot, Ideal.exp_bot, mul_zero]
    | top => rw [EReal.coe_add_top, Ideal.exp_top, Ideal.exp_coe, EReal.coe_mul_top_of_pos (Real.exp_pos r)]
    | coe s => rw [← EReal.coe_add, Ideal.exp_coe, Ideal.exp_coe, Ideal.exp_coe, Real.exp_add, EReal.coe_mul]

/-- For counts `0 ≤ a < b` and an exponent `c > 0`, the power of the quotient is the exponential of the scaled
    difference of logarithms; at `a = 0` both sides are `0`. -/
theorem pow_div_eq_exp {a b c : ℝ} (ha : 0 ≤ a) (hab : a < b) (hc : 0 < c) :
    Ideal.pow (Ideal.div (a : EReal) (b : EReal)) (c : EReal)
      = Ideal.exp ((c : EReal) * (Ideal.log (a : EReal) - Ideal.log (b : EReal))) := by
  have hb : 0 < b := lt_of_le_of_lt ha hab
  rw [Ideal.div_coe hb.ne', ← EReal.coe_mul, Ideal.pow_coe_coe, Ideal.log_coe, Ideal.log_coe, if_neg (not_le.2 hb)]
  rcases ha.eq_or_lt with h0 | hpos
  · subst h0
    rw [if_pos le_rfl, zero_mul, Real.rpow_eq_pow, Real.zero_rpow hc.ne', sub_eq_add_neg, EReal.bot_add,
      EReal.coe_mul_bot_of_pos hc, Ideal.exp_bot, EReal.coe_zero]
  · rw [if_neg (not_le.2 hpos), ← EReal.coe_sub, ← EReal.coe_mul, Ideal.exp_coe, Real.rpow_eq_pow,
      Real.rpow_def_of_pos (mul_pos hpos (one_div_pos.2 hb)), Real.log_mul hpos.ne' (one_div_ne_zero hb.ne'),
      one_div, Real.log_inv]
    congr 2
    ring

/-! ## The two row formulas -/

variable {ι : Type} [Fintype ι] [DecidableEq ι]

/-- The kernel's weight of class `j` on a row with target `t`: the seesaw factor folded into the exponent. -/
def wgt (c : EReal) (x n : ι → EReal) (t j : ι) : EReal :=
  Ideal.exp (x j + (if n j < n t then c * (Ideal.log (n j) - Ideal.log (n t)) else 0))

/-- The kernel's row loss: `0 - log (w_t / (∑ w + e) + e)`, the target's weight picked by a masked sum. -/
def kernelRow (c e : EReal) (x n : ι → EReal) (t : ι) : EReal :=
  0 - Ideal.log (Ideal.div (∑ j, if t = j then wgt c x n t j else 0) ((∑ j, wgt c x n t j) + e) + e)

/-- The reference's seesaw factor `s i j`. -/
def seesaw (c : EReal) (n : ι → EReal) (i j : ι) : EReal :=
  if n j < n i then Ideal.pow (Ideal.div (n j) (n i)) c else 1

/-- The one-hot row of the target. -/
def oneHot (t j : ι) : EReal := if t = j then 1 else 0

/-- The reference's entry `log (σ i + e)` of a row. -/
def refLog (c e : EReal) (x n : ι → EReal) (t i : ι) : EReal :=
  Ideal.log (Ideal.div (Ideal.exp (x i))
    (((∑ j, ((1 - oneHot t j) * Ideal.exp (x j)) * seesaw c n i j) + Ideal.exp (x i)) + e) + e)

/-- The reference's row loss: the one-hot sum of `-log (σ + e)`. -/
def refRow (c e : EReal) (x n : ι → EReal) (t : ι) : EReal :=
  ∑ i, (-(oneHot t i)) * refLog c e x n t i

/-! ## They agree -/

theorem wgt_self (c : EReal) (x n : ι → EReal) (t : ι) : wgt c x n t t = Ideal.exp (x t) := by
  unfold wgt
  rw [if_neg (lt_irrefl _), add_zero]

/-- Off the target the reference's masked, weighted term is the kernel's weight. -/
theorem term_eq {c : ℝ} (hc : 0 < c) (x : ι → EReal) (n : ι → ℝ) (hn : ∀ j, 0 ≤ n j) (t j : ι) (hj : j ≠ t) :
    ((1 - oneHot t j) * Ideal.exp (x j)) * seesaw (c : EReal) (fun k => (n k : EReal)) t j
      = wgt (c : EReal) x (fun k => (n k : EReal)) t j := by
  unfold oneHot seesaw wgt
  rw [if_neg (fun h => hj h.symm), sub_zero, one_mul]
  by_cases h : ((n j : ℝ) : EReal) < (n t : EReal)
  · rw [if_pos h, if_pos h, exp_add, pow_div_eq_exp (hn j) (EReal.coe_lt_coe_iff.1 h) hc]
  · rw [if_neg h, if_neg h, add_zero, mul_one]

/-- On the target the reference's term vanishes: the mask `1 - 1` is `0`. -/
theorem term_self (c : EReal) (x n : ι → EReal) (t : ι) :
    ((1 - oneHot t t) * Ideal.exp (x t)) * seesaw c n t t = 0 := by
  unfold oneHot
  rw [if_pos rfl]
  have h : (1 : EReal) - 1 = 0 := by
    rw [← EReal.coe_one, ← EReal.coe_sub, sub_self, EReal.coe_zero]
  rw [h, zero_mul, zero_mul]

/-- The reference's denominator for the target class is the sum of the kernel's weights. -/
theorem denom_eq {c : ℝ} (hc : 0 < c) (x : ι → EReal) (n : ι → ℝ) (hn : ∀ j, 0 ≤ n j) (t : ι) :
    (∑ j, ((1 - oneHot t j) * Ideal.exp (x j)) * seesaw (c : EReal) (fun k => (n k : EReal)) t j) + Ideal.exp (x t)
      = ∑ j, wgt (c : EReal) x (fun k => (n k : EReal)) t j := by
  rw [← Finset.add_sum_erase _ _ (Finset.mem_univ t), ← Finset.add_sum_erase Finset.univ (wgt _ _ _ t) (Finset.mem_univ t),
    term_self, zero_add, wgt_self, add_comm]
  congr 1
  exact Finset.sum_congr rfl fun j hj => term_eq hc x n hn t j (Finset.ne_of_mem_erase hj)

/-- The row identity: for non-negative counts and a positive exponent the reference's row loss is the kernel's. -/
theorem refRow_eq_kernelRow {c : ℝ} (hc : 0 < c) (e : EReal) (x : ι → EReal) (n : ι → ℝ) (hn : ∀ j, 0 ≤ n j) (t : ι) :
    refRow (c : EReal) e x (fun k => (n k : EReal)) t = kernelRow (c : EReal) e x (fun k => (n k : EReal)) t := by
  unfold refRow kernelRow
  rw [Finset.sum_eq_single t]
  · unfold oneHot refLog
    rw [if_pos rfl, neg_mul, one_mul, sub_eq_add_neg, zero_add, denom_eq hc x n hn t, Finset.sum_ite_eq,
      if_pos (Finset.mem_univ t), wgt_self]
  · intro i _ hi
    unfold oneHot
    rw [if_neg (fun h => hi h.symm), neg_zero, zero_mul]
  · intro h
    exact absurd (Finset.mem_univ t) h

end Cert.Seesaw

end
-- ==== Proof.Loss.lean ====
/-
  The value both programs compute: the mean over the 2048 rows of the seesaw row loss.

  A row `b` of the logits is shifted by its maximum (the fold of `max` from `-∞` over the 1784 classes); the row's
  target class is the target word read as a class index, a class's count is its count word read as a signed integer.
  The row loss is `kernelRow` of these (Proof/RowIdentity.lean, where it is shown equal to the reference's one-hot
  form), and the result is the sum of the row losses divided by the batch size. The four float constants of the
  programs enter as the extended reals their bit patterns denote; only three facts about them are used: the exponent
  `0.8f` denotes a positive real, `1.0f` denotes `1`, and `+0.0f` denotes `0`.
-/
import proofs.«410336_j2078764171361_3_alg».proof.Proof.RowIdentity
import Idealize.ShloMosaic.Lib.ValueIdx

noncomputable section

namespace Cert.Seesaw

open Idealize.ShloMosaic Idealize.ShloMosaic.ValueIdx

/-- The seesaw exponent `p`: the f32 nearest to 0.8. -/
def expC : EReal := Ideal.ofBits .f32 0x3F4CCCCD#32
/-- The stabilising epsilon: the f32 nearest to 1e-6. -/
def epsC : EReal := Ideal.ofBits .f32 0x358637BD#32
/-- `-∞`, the initial value of a row's maximum. -/
def negInfC : EReal := Ideal.ofBits .f32 0xFF800000#32
/-- The batch size 2048 as a float. -/
def batchC : EReal := Ideal.ofBits .f32 0x45000000#32

/-- The exponent's pattern denotes the positive real 13421773 / 2^24. -/
theorem expC_eq : expC = ((13421773 / 16777216 : ℝ) : EReal) := by
  unfold expC
  simp [Ideal.ofBits, Ideal.ieee, -EReal.coe_mul]; norm_num

theorem expC_pos : (0 : ℝ) < 13421773 / 16777216 := by norm_num

/-- `1.0f` denotes `1`. -/
theorem ofBits_one : Ideal.ofBits .f32 0x3F800000#32 = 1 := by
  simp [Ideal.ofBits, Ideal.ieee, -EReal.coe_mul]; norm_num

/-- `+0.0f` denotes `0`. -/
theorem ofBits_zero : Ideal.ofBits .f32 0x00000000#32 = 0 := by
  simp [Ideal.ofBits, Ideal.ieee]

/-- A row's maximum: the fold of `max` from `-∞` over the classes. -/
def rowMax (x : Fin 1784 → EReal) : EReal := (Finset.univ : Finset (Fin 1784)).fold max negInfC x

/-- A row shifted by its maximum. -/
def shifted (x : Fin 1784 → EReal) (j : Fin 1784) : EReal := x j - rowMax x

/-- Row `b`'s target class: its target word as a class index (the word itself when it is below 1784). -/
def tgtOf (T : (⟨1, ![2048]⟩ : Shape).Idx → BitVec 32) (b : Fin 2048) : Fin 1784 :=
  ⟨(T (ix1 b)).toNat % 1784, Nat.mod_lt _ (by decide)⟩

/-- Class `j`'s count as a real: its word read as a signed integer. -/
def countOf (N : (⟨1, ![1784]⟩ : Shape).Idx → BitVec 32) (j : Fin 1784) : ℝ := ((N (ix1 j)).toInt : ℝ)

/-- The mean seesaw loss of logits `X`, target words `T` and count words `N`. -/
def meanLoss (X : (⟨2, ![2048, 1784]⟩ : Shape).Idx → EReal) (T : (⟨1, ![2048]⟩ : Shape).Idx → BitVec 32)
    (N : (⟨1, ![1784]⟩ : Shape).Idx → BitVec 32) : EReal :=
  Ideal.div (∑ b : Fin 2048, kernelRow expC epsC (shifted fun j => X (ix2 b j)) (fun j => (countOf N j : EReal)) (tgtOf T b))
    batchC

/-- A target word below 1784 is the word of its class index. -/
theorem word_tgtOf (T : (⟨1, ![2048]⟩ : Shape).Idx → BitVec 32) (b : Fin 2048) (h : (T (ix1 b)).toNat < 1784) :
    T (ix1 b) = BitVec.ofNat 32 (tgtOf T b).val := by
  unfold tgtOf
  apply BitVec.eq_of_toNat_eq
  rw [BitVec.toNat_ofNat]
  show _ = ((T (ix1 b)).toNat % 1784) % 2 ^ 32
  rw [Nat.mod_eq_of_lt h, Nat.mod_eq_of_lt (T (ix1 b)).isLt]

/-- Two class indices have the same word only if they are the same class. -/
theorem ofNat_class_inj (i j : Fin 1784) : BitVec.ofNat 32 i.val = BitVec.ofNat 32 j.val ↔ i = j := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

end Cert.Seesaw

end
-- ==== Proof.RefValue.lean ====
/-
  The reference's result is the mean seesaw loss.

  The reference's stages are read one index at a time: the seesaw matrix entry `(i, j)` is the selected power of the
  quotient of counts `j` and `i`; the one-hot entry `(b, j)` compares row `b`'s target word with the word of `j`; the
  denominator is the contraction over `j` plus the row's own exponential; the row loss is the sum over the classes of
  the negated one-hot times the logarithm; the result is the sum over the rows divided by the batch size. Each row loss
  is then the kernel's row formula by the row identity (Proof/RowIdentity.lean).
-/
import proofs.«410336_j2078764171361_3_alg».proof.Proof.RefRead
import proofs.«410336_j2078764171361_3_alg».proof.Proof.Loss
import Idealize.ShloMosaic.PureOps.Reduce
import Idealize.ShloMosaic.Lib.ValueIdxRank1
import Idealize.ShloMosaic.Lib.StableHlo.Predicate

noncomputable section

namespace Cert.Seesaw.Ref

open Cert.ReferenceIdeal Cert.ReferenceIdeal.Gen Cert.ReferenceIdeal.Read Idealize.ShloMosaic Idealize.ShloMosaic.ValueIdx Cert.Seesaw

/-! ## Where each stage reads its operand

A broadcast, a contraction and a row sum read their operands at indices computed from the result's index. At a result
index given by its coordinates these are again indices given by coordinates. -/

section Indices
variable (i j : Fin 1784) (b : Fin 2048) (k : Fin 1784)

/-- The count matrix's column operand at `(i, j)` is the count vector at `j`. -/
theorem idx_v1_v3 : idx_main_v1 (idx_main_v3 (ix2 i j)) = ix1 j := by
  funext a; match a with | ⟨0, _⟩ => rfl
/-- The count matrix's row operand at `(i, j)` is the count vector at `i`. -/
theorem idx_v2_v4 : idx_main_v2 (idx_main_v4 (ix2 i j)) = ix1 i := by
  funext a; match a with | ⟨0, _⟩ => rfl
theorem idx_v6_v8 : idx_main_v6 (idx_main_v8 (ix2 i j)) = ix1 i := by
  funext a; match a with | ⟨0, _⟩ => rfl
theorem idx_v7_v9 : idx_main_v7 (idx_main_v9 (ix2 i j)) = ix1 j := by
  funext a; match a with | ⟨0, _⟩ => rfl
/-- The target words broadcast along the classes: entry `(b, j)` reads row `b`'s word. -/
theorem idx_c0_c2 : idx_main_call1_v0 (idx_main_call1_v2 (ix2 b j)) = ix1 b := by
  funext a; match a with | ⟨0, _⟩ => rfl
/-- The row maxima broadcast along the classes: entry `(b, j)` reads row `b`'s maximum. -/
theorem idx_v16_v17 : idx_main_v16 (idx_main_v17 (ix2 b j)) = ix1 b := by
  funext a; match a with | ⟨0, _⟩ => rfl
/-- The contraction's left operand at `(b, i)` and `k` is entry `(b, k)`. -/
theorem lidx_v23 : lidx_main_v23 (ix2 b i) k = ix2 b k := by
  funext a; match a with | ⟨0, _⟩ => rfl | ⟨1, _⟩ => rfl
/-- The contraction's right operand at `(b, i)` and `k` is entry `(i, k)`. -/
theorem ridx_v23 : ridx_main_v23 (ix2 b i) k = ix2 i k := by
  funext a; match a with | ⟨0, _⟩ => rfl | ⟨1, _⟩ => rfl
/-- The row sum at `b` and `k` reads entry `(b, k)`. -/
theorem idx_v33 : idx_main_v33 (ix1 b) k = ix2 b k := by
  funext a; match a with | ⟨0, _⟩ => rfl | ⟨1, _⟩ => rfl

end Indices

/-! ## The seesaw matrix -/

/-- A count converted to a float is the count as a real. -/
theorem count_read (N : (⟨S1784, .i32⟩ : BufTy).Contents (Elt Ideal)) (j : Fin 1784) :
    val_main_v0 (F := Ideal) N (ix1 j) = (countOf N j : EReal) := rfl

/-- A select on the comparison `a > b` of two extended reals is the `if` on `b < a`. -/
theorem select_ogt (a b u v : EReal) :
    Scalar.select (FloatOps.cmpf (F := Ideal) (φ := .f32) .ogt a b) u v = if b < a then u else v := by
  show Scalar.select (BitVec.ofBool (decide (b < a))) u v = _
  by_cases h : b < a
  · rw [if_pos h, decide_eq_true h]; exact select_one u v
  · rw [if_neg h, decide_eq_false h]; exact select_zero u v

/-- Entry `(i, j)` of the reference's matrix is the seesaw factor `s i j` of the counts. -/
theorem seesaw_read (N : (⟨S1784, .i32⟩ : BufTy).Contents (Elt Ideal)) (i j : Fin 1784) :
    val_main_v13 (F := Ideal) N (ix2 i j) = seesaw expC (fun k => (countOf N k : EReal)) i j := by
  rw [val_main_v13_apply, val_main_v10_apply, val_main_v12_apply, val_main_v5_apply,
    val_main_v8_apply, val_main_v6_apply, val_main_v9_apply, val_main_v7_apply,
    val_main_v3_apply, val_main_v1_apply, val_main_v4_apply, val_main_v2_apply,
    val_main_v11_apply, val_main_cst_apply, val_main_call0_v1_apply, val_main_call0_v0_apply, val_main_cst_0_apply,
    idx_v6_v8, idx_v7_v9, idx_v1_v3, idx_v2_v4, count_read, count_read, select_ogt]
  unfold seesaw
  rw [Ideal.ofBits_def, Ideal.ofBits_def, ofBits_one]
  rfl

/-! ## The one-hot matrix -/

/-- Entry `(b, j)` of the reference's one-hot matrix: `1` where `j` is row `b`'s target class, else `0`. -/
theorem onehot_read (T : (⟨S2048, .i32⟩ : BufTy).Contents (Elt Ideal)) (b : Fin 2048) (hb : (T (ix1 b)).toNat < 1784)
    (j : Fin 1784) : val_main_v14 (F := Ideal) T (ix2 b j) = oneHot (tgtOf T b) j := by
  rw [val_main_v14_apply, val_main_call1_v4_apply, val_main_call1_v2_apply, val_main_call1_v0_apply,
    val_main_call1_v3_apply, val_main_call1_v1_apply, idx_c0_c2]
  show (((IntOp.cmpi .eq (T (ix1 b)) (BitVec.ofNat 32 j.val)).toNat : ℝ) : EReal) = _
  rw [word_tgtOf T b hb]
  unfold oneHot
  by_cases h : tgtOf T b = j
  · rw [if_pos h, StableHlo.Predicate.cmpi_eq_iff.2 (by rw [h])]
    show (((1 : ℕ) : ℝ) : EReal) = 1
    rw [Nat.cast_one, EReal.coe_one]
  · rw [if_neg h, eq_zero_of_ne_one fun h1 => h ((ofNat_class_inj _ _).1 (StableHlo.Predicate.cmpi_eq_iff.1 h1))]
    show (((0 : ℕ) : ℝ) : EReal) = 0
    rw [Nat.cast_zero, EReal.coe_zero]

/-! ## The shifted exponentials -/

/-- The reference's row maximum reduces the class axis of the logits. -/
theorem reduces_d1 : S2048x1784.Reduces [1] S2048 := by decide

/-- Row `b` with class `k` inserted is entry `(b, k)`. -/
theorem lift_d1 (b : Fin 2048) (k : Fin 1784) : reduces_d1.lift (ix1 b) k = ix2 b k := by
  funext a; apply Fin.ext; match a with | ⟨0, _⟩ => rfl | ⟨1, _⟩ => rfl

/-- The reference's row maximum is the fold of `max` from `-∞` over the row. -/
theorem rowmax_read (X : (⟨S2048x1784, .f32⟩ : BufTy).Contents (Elt Ideal)) (b : Fin 2048) :
    val_main_v15 (F := Ideal) X (ix1 b) = rowMax (fun j => X (ix2 b j)) := by
  unfold val_main_v15
  refine (Host.reduce_eq_fold_single (s := S2048x1784) (t := S2048) (u := S_) (FloatOps.maximumf (F := Ideal) (φ := .f32)) X
    (val_main_cst_1 (F := Ideal)) reducesTo_S2048x1784_S2048_d1 reduces_d1 h_S_ (ix1 b)).trans ?_
  have hrow : (X ∘ reduces_d1.lift (ix1 b)) = fun j : Fin 1784 => X (ix2 b j) :=
    funext fun k => congrArg X (lift_d1 b k)
  rw [hrow]
  rfl

/-- Entry `(b, j)` of the reference's exponentials is `exp` of row `b`'s shifted logit `j`. -/
theorem exp_read (X : (⟨S2048x1784, .f32⟩ : BufTy).Contents (Elt Ideal)) (b : Fin 2048) (j : Fin 1784) :
    val_main_v19 (F := Ideal) X (ix2 b j) = Ideal.exp (shifted (fun k => X (ix2 b k)) j) := by
  rw [val_main_v19_apply, val_main_v18_apply, val_main_v17_apply, val_main_v16_apply, idx_v16_v17, rowmax_read]
  rfl

/-! ## One row's loss -/

section Row
variable (X : (⟨S2048x1784, .f32⟩ : BufTy).Contents (Elt Ideal)) (T : (⟨S2048, .i32⟩ : BufTy).Contents (Elt Ideal))
  (N : (⟨S1784, .i32⟩ : BufTy).Contents (Elt Ideal)) (b : Fin 2048)

/-- Entry `(b, j)` of the contraction's left operand: the exponential masked off the target class. -/
theorem masked_read (hb : (T (ix1 b)).toNat < 1784) (j : Fin 1784) :
    val_main_v22 (F := Ideal) X T (ix2 b j)
      = (1 - oneHot (tgtOf T b) j) * Ideal.exp (shifted (fun k => X (ix2 b k)) j) := by
  rw [val_main_v22_apply, val_main_v21_apply, val_main_v20_apply, val_main_cst_2_apply, onehot_read T b hb, exp_read,
    Ideal.ofBits_def, ofBits_one]
  rfl

/-- Entry `(b, i)` of the contraction: the masked exponentials of row `b` weighted by the seesaw factors of class `i`. -/
theorem contraction_read (hb : (T (ix1 b)).toNat < 1784) (i : Fin 1784) :
    val_main_v23 (F := Ideal) X T N (ix2 b i)
      = ∑ k, ((1 - oneHot (tgtOf T b) k) * Ideal.exp (shifted (fun k => X (ix2 b k)) k))
          * seesaw expC (fun k => (countOf N k : EReal)) i k := by
  rw [val_main_v23_apply]
  refine Finset.sum_congr rfl fun k _ => ?_
  rw [lidx_v23, ridx_v23, masked_read X T b hb, seesaw_read]

/-- Entry `(b, i)` of the logarithms is the reference's `log (σ i + e)` of row `b`. -/
theorem log_read (hb : (T (ix1 b)).toNat < 1784) (i : Fin 1784) :
    val_main_v31 (F := Ideal) X T N (ix2 b i)
      = refLog expC epsC (shifted fun k => X (ix2 b k)) (fun k => (countOf N k : EReal)) (tgtOf T b) i := by
  rw [val_main_v31_apply, val_main_v30_apply, val_main_v27_apply, val_main_v26_apply, val_main_v24_apply,
    val_main_v25_apply, val_main_cst_3_apply, val_main_v29_apply, val_main_cst_4_apply,
    contraction_read X T N b hb, exp_read, Ideal.ofBits_def]
  rfl

/-- Entry `(b, i)` of the summands: the negated one-hot times the logarithm. -/
theorem term_read (hb : (T (ix1 b)).toNat < 1784) (i : Fin 1784) :
    val_main_v32 (F := Ideal) X T N (ix2 b i)
      = (-(oneHot (tgtOf T b) i))
          * refLog expC epsC (shifted fun k => X (ix2 b k)) (fun k => (countOf N k : EReal)) (tgtOf T b) i := by
  rw [val_main_v32_apply, val_main_v28_apply, onehot_read T b hb, log_read X T N b hb]
  rfl

/-- Row `b`'s loss in the reference: zero plus the one-hot sum of `-log (σ + e)`. -/
theorem row_read (hb : (T (ix1 b)).toNat < 1784) :
    val_main_v33 (F := Ideal) X T N (ix1 b)
      = 0 + refRow expC epsC (shifted fun k => X (ix2 b k)) (fun k => (countOf N k : EReal)) (tgtOf T b) := by
  rw [val_main_v33_apply, val_main_cst_5_apply, Ideal.ofBits_def, ofBits_zero]
  unfold refRow
  refine congrArg (0 + ·) (Finset.sum_congr rfl fun k _ => ?_)
  rw [idx_v33, term_read X T N b hb]

end Row

/-! ## The mean over the rows -/

/-- With every target word a class index and every count non-negative, the reference's last stage holds the mean
    seesaw loss of its three arguments. -/
theorem ref_result (X : (⟨S2048x1784, .f32⟩ : BufTy).Contents (Elt Ideal)) (T : (⟨S2048, .i32⟩ : BufTy).Contents (Elt Ideal))
    (N : (⟨S1784, .i32⟩ : BufTy).Contents (Elt Ideal))
    (hT : ∀ b : Fin 2048, (T (ix1 b)).toNat < 1784) (hN : ∀ j : Fin 1784, 0 ≤ (N (ix1 j)).toInt) :
    val_main_v35 (F := Ideal) X T N = fun _ => meanLoss X T N := by
  funext i
  rw [val_main_v35_apply, val_main_v34_apply, val_main_cst_7_apply, val_main_cst_6_apply, Ideal.ofBits_def,
    Ideal.ofBits_def, ofBits_zero, zero_add, ← Equiv.sum_comp (idxEquiv1 (n := 2048)).symm]
  unfold meanLoss
  show Ideal.div (∑ b : Fin 2048, val_main_v33 (F := Ideal) X T N (ix1 b)) batchC = _
  refine congrArg (Ideal.div · batchC) (Finset.sum_congr rfl fun b _ => ?_)
  rw [row_read X T N b (hT b), zero_add, expC_eq]
  exact refRow_eq_kernelRow expC_pos _ _ _ (fun j => Int.cast_nonneg (hN j)) _

end Cert.Seesaw.Ref

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  The kernel body at one row of a block.

  The body takes a block of 256 rows of logits, the rows' target words, the counts and their logarithms as one row each,
  and per row the target's count and its logarithm. At row `p` it subtracts the row maximum, adds to class `j` the scaled
  difference of logarithms where the target's count exceeds class `j`'s, exponentiates, sums over the classes once plain
  and once masked by "the target word is the word of `j`", divides the masked sum by the plain sum plus epsilon, and
  stores `0 - log (quotient + epsilon)`. Read at row `p`, with the per-row operands identified as the counts at the target
  class, this is `kernelRow` of the row (Proof/RowIdentity.lean) at the row's shifted logits.
-/
import proofs.«410336_j2078764171361_3_alg».proof.Proof.Gen.KernelIdeal.Skeleton
import proofs.«410336_j2078764171361_3_alg».proof.Proof.Loss
import proofs.«410336_j2078764171361_3_alg».proof.Proof.LibColumnLayout
import Idealize.ShloMosaic.Lib.ValueLayout
import Idealize.ShloMosaic.Lib.StableHlo.Predicate
import Idealize.ShloMosaic.Lib.Pipeline.Value
import Idealize.ShloMosaic.PureOps.Ideal.Laws

noncomputable section

namespace Cert.Seesaw.Kernel

open Cert.KernelIdeal Cert.KernelIdeal.Gen Idealize.ShloMosaic Idealize.ShloMosaic.ValueIdx Cert.Seesaw
open Cert.KernelIdeal.Facts

variable [Cert.KernelIdeal.Facts]

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (q : CmpIPredicate) (a b : IVec s w) (i : s.Idx) :
    cmpi q a b i = IntOp.cmpi q (a i) (b i) := rfl

/-- The index a reduction over the class axis inserts: row `p`, class `k`. -/
theorem lift_row (p : Fin 256) (k : Fin 1784) :
    reduces_S256x1784_S256.lift (ix1 p) k = ix2 p k :=
  funext fun a => Fin.ext (by match a with | ⟨0, _⟩ => rfl | ⟨1, _⟩ => rfl)

/-- A sum over the class axis at row `p` is the sum over the classes of the entries of row `p`. -/
theorem rowSum_apply (src : FVec Ideal S256x1784 .f32) (hφ : FKind.Formats .f32)
    (hacc : (0x00000000#32 : BitVec 32) = FKind.add.neutral .f32 hφ) (p : Fin 256) :
    multiReduction .add [1] S256 src 0x00000000#32 reduces_S256x1784_S256 hφ hacc (ix1 p) = ∑ k : Fin 1784, src (ix2 p k) := by
  refine (Ideal.multiReduction_add_single src _ reduces_S256x1784_S256 hφ hacc (ix1 p)).trans ?_
  exact Finset.sum_congr rfl fun k _ => congrArg src (lift_row p k)

/-- A maximum over the class axis at row `p` is the row's maximum: the fold of `max` from `-∞`. -/
theorem rowMax_apply (src : FVec Ideal S256x1784 .f32) (hφ : FKind.Formats .f32)
    (hacc : (0xFF800000#32 : BitVec 32) = FKind.maximumf.neutral .f32 hφ) (p : Fin 256) :
    multiReduction .maximumf [1] S256 src 0xFF800000#32 reduces_S256x1784_S256 hφ hacc (ix1 p) = rowMax fun k => src (ix2 p k) := by
  refine (Ideal.multiReduction_maximumf_single src _ reduces_S256x1784_S256 hφ hacc (ix1 p)).trans ?_
  unfold rowMax negInfC
  exact congrArg (Finset.fold max _ · Finset.univ) (funext fun k => congrArg src (lift_row p k))

/-- A select on "`b < a`" as a float comparison is the `if` on it. -/
theorem select_ogt (a b A B : EReal) :
    Scalar.select (FloatOps.cmpf (F := Ideal) (φ := .f32) .ogt a b) A B = if b < a then A else B := by
  show (if BitVec.ofBool (decide (b < a)) = 1 then A else B) = _
  by_cases h : b < a <;> simp [h]

/-- The kernel's weight of class `j` at row `p` of a block, over the body's loads. -/
def blockWgt (x0 : FVec Ideal S256x1784 .f32) (x2 x3 : FVec Ideal S1x1784 .f32) (x4 x5 : FVec Ideal S256x1 .f32)
    (p : Fin 256) (j : Fin 1784) : EReal :=
  Ideal.exp ((x0 (ix2 p j) - rowMax fun k => x0 (ix2 p k))
    + (if x2 (ix2 0 j) < x4 (ix2 p 0) then expC * (x3 (ix2 0 j) - x5 (ix2 p 0)) else 0))

/-- The exponentiated, shifted and reweighted logits at `(p, k)` are the weight of class `k` at row `p`. -/
theorem wgt_apply (x0 : FVec Ideal S256x1784 .f32) (x2 x3 : FVec Ideal S1x1784 .f32) (x4 x5 : FVec Ideal S256x1 .f32)
    (hφ : FKind.Formats .f32) (hacc : (0xFF800000#32 : BitVec 32) = FKind.maximumf.neutral .f32 hφ) (p : Fin 256) (k : Fin 1784) :
    (exp (addf (subf x0 (broadcastTo S256x1784 (shapeCast S256x1 (multiReduction .maximumf [1] S256 x0 0xFF800000#32
            reduces_S256x1784_S256 hφ hacc) shapeCasts_S256_S256x1) broadcasts_S256x1_S256x1784))
        (select (cmpf .ogt (broadcastTo S256x1784 (shapeCast S256x1 x4 shapeCasts_S256x1_S256x1) broadcasts_S256x1_S256x1784)
            (broadcastTo S256x1784 (shapeCast S1x1784 x2 shapeCasts_S1x1784_S1x1784) broadcasts_S1x1784_S256x1784))
          (mulf (broadcast S256x1784 (FloatOps.ofBits .f32 0x3F4CCCCD#32))
            (subf (broadcastTo S256x1784 (shapeCast S1x1784 x3 shapeCasts_S1x1784_S1x1784) broadcasts_S1x1784_S256x1784)
              (broadcastTo S256x1784 (shapeCast S256x1 x5 shapeCasts_S256x1_S256x1) broadcasts_S256x1_S256x1784)))
          (broadcast S256x1784 (FloatOps.ofBits .f32 0x00000000#32)))) : FVec Ideal S256x1784 .f32) (ix2 p k)
      = blockWgt x0 x2 x3 x4 x5 p k := by
  rw [exp_apply, addf_apply, subf_apply, select_apply, cmpf_apply, mulf_apply, subf_apply, broadcast_apply, broadcast_apply,
    shapeCast_self, shapeCast_self, shapeCast_self, shapeCast_self,
    broadcastTo_a1_ab_apply, broadcastTo_a1_ab_apply, broadcastTo_a1_ab_apply,
    broadcastTo_1b_ab_apply, broadcastTo_1b_ab_apply, shapeCast_a_a1_apply, rowMax_apply, select_ogt]
  unfold blockWgt expC
  rw [Ideal.ofBits_def, Ideal.ofBits_def, ofBits_zero]

/-- The body's weight vector: the exponentiated, shifted and reweighted block. -/
def wvec (x0 : FVec Ideal S256x1784 .f32) (x2 x3 : FVec Ideal S1x1784 .f32) (x4 x5 : FVec Ideal S256x1 .f32) :
    FVec Ideal S256x1784 .f32 :=
  exp (addf (subf x0 (broadcastTo S256x1784 (shapeCast S256x1 (multiReduction .maximumf [1] S256 x0 0xFF800000#32
          reduces_S256x1784_S256 (.inl rfl) rfl) shapeCasts_S256_S256x1) broadcasts_S256x1_S256x1784))
      (select (cmpf .ogt (broadcastTo S256x1784 (shapeCast S256x1 x4 shapeCasts_S256x1_S256x1) broadcasts_S256x1_S256x1784)
          (broadcastTo S256x1784 (shapeCast S1x1784 x2 shapeCasts_S1x1784_S1x1784) broadcasts_S1x1784_S256x1784))
        (mulf (broadcast S256x1784 (FloatOps.ofBits .f32 0x3F4CCCCD#32))
          (subf (broadcastTo S256x1784 (shapeCast S1x1784 x3 shapeCasts_S1x1784_S1x1784) broadcasts_S1x1784_S256x1784)
            (broadcastTo S256x1784 (shapeCast S256x1 x5 shapeCasts_S256x1_S256x1) broadcasts_S256x1_S256x1784)))
        (broadcast S256x1784 (FloatOps.ofBits .f32 0x00000000#32))))

theorem wvec_apply (x0 : FVec Ideal S256x1784 .f32) (x2 x3 : FVec Ideal S1x1784 .f32) (x4 x5 : FVec Ideal S256x1 .f32)
    (p : Fin 256) (k : Fin 1784) : wvec x0 x2 x3 x4 x5 (ix2 p k) = blockWgt x0 x2 x3 x4 x5 p k := by
  unfold wvec
  exact wgt_apply x0 x2 x3 x4 x5 _ _ p k

/-- A vector masked by "row `p`'s target word is the word of class `k`": elsewhere zero. -/
def mvec (x1 : IVec S256x1 32) (W : FVec Ideal S256x1784 .f32) : FVec Ideal S256x1784 .f32 :=
  select (cmpi .eq (broadcastTo S256x1784 (shapeCast S256x1 x1 shapeCasts_S256x1_S256x1) broadcasts_S256x1_S256x1784)
      (broadcastTo S256x1784 (iota .tc S1x1784 32 [1] iota_S1x1784_d1_w32) broadcasts_S1x1784_S256x1784))
    W (broadcast S256x1784 (FloatOps.ofBits .f32 0x00000000#32))

theorem mvec_apply (x1 : IVec S256x1 32) (W : FVec Ideal S256x1784 .f32) (p : Fin 256) (k : Fin 1784) :
    mvec x1 W (ix2 p k) = if x1 (ix2 p 0) = BitVec.ofNat 32 k.val then W (ix2 p k) else 0 := by
  unfold mvec
  rw [select_apply, cmpi_apply, broadcast_apply, shapeCast_self, broadcastTo_a1_ab_apply, broadcastTo_1b_ab_apply,
    iota_single_apply]
  show (if IntOp.cmpi .eq (x1 (ix2 p 0)) (BitVec.ofNat 32 k.val) = 1#1 then W (ix2 p k) else _) = _
  by_cases h : x1 (ix2 p 0) = BitVec.ofNat 32 k.val
  · rw [if_pos (StableHlo.Predicate.cmpi_eq_iff.2 h), if_pos h]
  · rw [if_neg (mt StableHlo.Predicate.cmpi_eq_iff.1 h), if_neg h, Ideal.ofBits_def, ofBits_zero]

/-- The body's quotient over the two named vectors. -/
theorem pay2_eq (x0 : Vec Ideal S256x1784 .f32) (x1 : Vec Ideal S256x1 .i32) (x2 x3 : Vec Ideal S1x1784 .f32)
    (x4 x5 : Vec Ideal S256x1 .f32) :
    k0_pay2 (F := Ideal) x0 x1 x2 x3 x4 x5
      = divf (shapeCast S256x1 (multiReduction .add [1] S256 (mvec x1 (wvec x0 x2 x3 x4 x5)) 0x00000000#32
            reduces_S256x1784_S256 (.inl rfl) rfl) shapeCasts_S256_S256x1)
          (addf (shapeCast S256x1 (multiReduction .add [1] S256 (wvec x0 x2 x3 x4 x5) 0x00000000#32
            reduces_S256x1784_S256 (.inl rfl) rfl) shapeCasts_S256_S256x1)
            (broadcast S256x1 (FloatOps.ofBits .f32 0x358637BD#32))) := rfl

/-- The quotient the body forms at row `p`: the masked sum of weights over the sum of weights plus epsilon. -/
theorem pay2_apply (x0 : Vec Ideal S256x1784 .f32) (x1 : Vec Ideal S256x1 .i32) (x2 x3 : Vec Ideal S1x1784 .f32)
    (x4 x5 : Vec Ideal S256x1 .f32) (p : Fin 256) (u : Fin 1) :
    k0_pay2 (F := Ideal) x0 x1 x2 x3 x4 x5 (ix2 p u)
      = Ideal.div (∑ j : Fin 1784, if x1 (ix2 p 0) = BitVec.ofNat 32 j.val then blockWgt x0 x2 x3 x4 x5 p j else 0)
          ((∑ j : Fin 1784, blockWgt x0 x2 x3 x4 x5 p j) + epsC) := by
  rw [pay2_eq, divf_apply, addf_apply, broadcast_apply, shapeCast_a_a1_apply, shapeCast_a_a1_apply]
  refine congrArg₂ Ideal.div ((rowSum_apply _ _ _ p).trans ?_) (congrArg₂ (· + ·) ((rowSum_apply _ _ _ p).trans ?_) rfl)
  · exact Finset.sum_congr rfl fun k _ => by rw [mvec_apply, wvec_apply]
  · exact Finset.sum_congr rfl fun k _ => wvec_apply x0 x2 x3 x4 x5 p k

/-- The value the body stores at row `p`: `0 - log (quotient + epsilon)`. -/
theorem pay1_apply (v : FVec Ideal S256x1 .f32) (p : Fin 256) (u : Fin 1) :
    k0_pay1 (F := Ideal) v (ix2 p u) = 0 - Ideal.log (v (ix2 p u) + epsC) := by
  unfold k0_pay1
  rw [subf_apply, log_apply, addf_apply, broadcast_apply, broadcast_apply]
  unfold epsC
  rw [Ideal.ofBits_def, Ideal.ofBits_def, ofBits_zero]

/-- With the per-row operands identified — the target word is class `t`'s, the count row is `n`, the log row its
    logarithm, the per-row count and logarithm those of class `t` — the stored value at row `p` is the row loss. -/
theorem body_row (x0 : Vec Ideal S256x1784 .f32) (x1 : Vec Ideal S256x1 .i32) (x2 x3 : Vec Ideal S1x1784 .f32)
    (x4 x5 : Vec Ideal S256x1 .f32) (p : Fin 256) (u : Fin 1) (n : Fin 1784 → EReal) (t : Fin 1784)
    (h1 : x1 (ix2 p 0) = BitVec.ofNat 32 t.val) (h2 : ∀ j, x2 (ix2 0 j) = n j) (h3 : ∀ j, x3 (ix2 0 j) = Ideal.log (n j))
    (h4 : x4 (ix2 p 0) = n t) (h5 : x5 (ix2 p 0) = Ideal.log (n t)) :
    k0_pay1 (F := Ideal) (k0_pay2 (F := Ideal) x0 x1 x2 x3 x4 x5) (ix2 p u)
      = kernelRow expC epsC (shifted fun j => x0 (ix2 p j)) n t := by
  have hw : ∀ j, blockWgt x0 x2 x3 x4 x5 p j = wgt expC (shifted fun j => x0 (ix2 p j)) n t j := fun j => by
    unfold blockWgt wgt shifted
    rw [h2 j, h3 j, h4, h5]
  rw [pay1_apply, pay2_apply]
  unfold kernelRow
  refine congrArg (fun z => 0 - Ideal.log (z + epsC)) (congrArg₂ Ideal.div ?_ ?_)
  · refine Finset.sum_congr rfl fun j _ => ?_
    rw [hw j, h1]
    exact if_congr (ofNat_class_inj t j) rfl rfl
  · exact congrArg (· + epsC) (Finset.sum_congr rfl fun j _ => hw j)

end Cert.Seesaw.Kernel

end
-- ==== Proof.KernelWindows.lean ====
/-
  The arrays the region's windows read, at an index.

  Before the region the program converts the counts to floats and takes their logarithm (each then laid out as one row),
  lays the target words out as a column, and gathers, per row, the count and the log-count at the row's target word —
  after adding the class count to a negative word, and with the position clamped into the table. For a target word that
  is a class index neither adjustment binds: the gathered entries are the count and the log-count of the row's class.
-/
import proofs.«410336_j2078764171361_3_alg».proof.Proof.Gen.KernelIdeal.Frame
import proofs.«410336_j2078764171361_3_alg».proof.Proof.Loss
import proofs.«410336_j2078764171361_3_alg».proof.Proof.LibColumnLayout
import Idealize.ShloMosaic.Lib.StableHlo.Run
import Idealize.ShloMosaic.Lib.StableHlo.Predicate
import Idealize.ShloMosaic.Lib.ValueLayout
import Idealize.ShloMosaic.Lib.ValueIdxRank1

noncomputable section

namespace Cert.Seesaw.Kernel

open Cert.KernelIdeal Cert.KernelIdeal.Gen Idealize.ShloMosaic Idealize.ShloMosaic.TcCoe Idealize.SL.Sem
open Idealize.ShloMosaic.StableHlo Idealize.ShloMosaic.ValueIdx Cert.Seesaw
open Cert.KernelIdeal.Facts

variable (m : (ℓ : Loc nD τ sig) → Buf (Elt Ideal) ℓ)

/-- The three argument arrays on core `c`: logits, target words, count words. -/
abbrev argX (c : Dev nD) : FVec Ideal S2048x1784 .f32 := m (c, Proc.devRef .tc main_arg0)
abbrev argT (c : Dev nD) : IVec S2048 32 := m (c, Proc.devRef .tc main_arg1)
abbrev argN (c : Dev nD) : IVec S1784 32 := m (c, Proc.devRef .tc main_arg2)

/-- The gather's positions: the target words, a negative one moved up by the class count, as a column. -/
def wrapIdx (T : IVec S2048 32) : IVec S2048x1 32 :=
  broadcastInDim S2048x1 ![0] bcast_S2048_S2048x1_0
    (select (cmpi .slt T (broadcastInDim S2048 ![] bcast_S_S2048 (constantI S_ 32 0#32)))
      (addi T (broadcastInDim S2048 ![] bcast_S_S2048 (constantI S_ 32 1784#32))) T)

/-! ## What each window's array holds when the region is entered -/

theorem V_v4 (c : Dev nD) :
    (V m c main_v4 : IVec S2048x1 32) = shapeCast S2048x1 (argT m c) shapeCasts_S2048_S2048x1 := by
  show StableHlo.after hostOps0 (fun b => m (c, b)) (Proc.devRef .tc main_v4) = _
  after_results; rfl

theorem V_v1 (c : Dev nD) :
    (V m c main_v1 : FVec Ideal S1x1784 .f32) = shapeCast S1x1784 (sitofp (F := Ideal) .f32 (argN m c)) shapeCasts_S1784_S1x1784 := by
  show StableHlo.after hostOps0 (fun b => m (c, b)) (Proc.devRef .tc main_v1) = _
  after_results; rfl

theorem V_v3 (c : Dev nD) :
    (V m c main_v3 : FVec Ideal S1x1784 .f32)
      = shapeCast S1x1784 (Host.log (sitofp (F := Ideal) .f32 (argN m c))) shapeCasts_S1784_S1x1784 := by
  show StableHlo.after hostOps0 (fun b => m (c, b)) (Proc.devRef .tc main_v3) = _
  after_results; rfl

theorem V_v12 (c : Dev nD) :
    (V m c main_v12 : FVec Ideal S2048x1 .f32)
      = shapeCast S2048x1 (Host.gather gather_S1784_S2048x1_S2048_n_0_n_n_0_1_1 (sitofp (F := Ideal) .f32 (argN m c))
          (wrapIdx (argT m c))) shapeCasts_S2048_S2048x1 := by
  show StableHlo.after hostOps0 (fun b => m (c, b)) (Proc.devRef .tc main_v12) = _
  after_results; rfl

theorem V_v20 (c : Dev nD) :
    (V m c main_v20 : FVec Ideal S2048x1 .f32)
      = shapeCast S2048x1 (Host.gather gather_S1784_S2048x1_S2048_n_0_n_n_0_1_1 (Host.log (sitofp (F := Ideal) .f32 (argN m c)))
          (wrapIdx (argT m c))) shapeCasts_S2048_S2048x1 := by
  show StableHlo.after hostOps0 (fun b => m (c, b)) (Proc.devRef .tc main_v20) = _
  after_results; rfl

/-! ## Their entries -/

theorem cmpi_at {s : Shape} {w : Nat} (q : CmpIPredicate) (a b : IVec s w) (i : s.Idx) :
    cmpi q a b i = IntOp.cmpi q (a i) (b i) := rfl

/-- The two spellings of a rank-1 index agree. -/
theorem ofFin_eq_ix1 {n : Nat} (k : Fin n) : Shape.Idx.ofFin k = ix1 k := by
  funext d; match d with | ⟨0, _⟩ => exact Fin.ext rfl

theorem ixP_eq_ix2 {n : Nat} (r : Fin n) : StableHlo.Predicate.ixP r = ix2 r (0 : Fin 1) := by
  funext a; match a with | ⟨0, _⟩ => rfl | ⟨1, _⟩ => rfl

/-- A position word that is a class index is left as it is. -/
theorem wrapIdx_apply (T : IVec S2048 32) (r : Fin 2048) (h : (T (ix1 r)).toNat < 1784) :
    wrapIdx T (ix2 r 0) = T (ix1 r) := by
  unfold wrapIdx
  rw [← ixP_eq_ix2, StableHlo.Predicate.bcast_col1, ofFin_eq_ix1, select_apply, cmpi_at,
    StableHlo.Predicate.bcast_scalar _ h_S_, constantI_apply]
  have hn : ¬ IntOp.cmpi .slt (T (ix1 r)) 0#32 = 1#1 := fun h1 =>
    Nat.not_lt_zero _ ((StableHlo.Predicate.slt_iff_toNat (by omega) (by decide)).1 h1)
  show (if IntOp.cmpi .slt (T (ix1 r)) 0#32 = 1#1 then _ else T (ix1 r)) = _
  exact if_neg hn

/-- The gather of a table at a row whose position word is a class index reads the table at that class. -/
theorem gather_apply {α : Type} (x : S1784.Idx → α) (T : IVec S2048 32) (r : Fin 2048) (h : (T (ix1 r)).toNat < 1784) :
    Host.gather gather_S1784_S2048x1_S2048_n_0_n_n_0_1_1 x (wrapIdx T) (ix1 r) = x (ix1 (tgtOf T r)) := by
  rw [← ofFin_eq_ix1 r, StableHlo.Predicate.gather_take _ rfl rfl rfl rfl x (wrapIdx T) r (by decide), ofFin_eq_ix1]
  refine congrArg x (congrArg ix1 (Fin.ext ?_))
  show min (wrapIdx T (StableHlo.Predicate.ixP r)).toInt.toNat (1784 - 1) = (T (ix1 r)).toNat % 1784
  rw [ixP_eq_ix2, wrapIdx_apply T r h, StableHlo.Predicate.toInt_eq_toNat_of_lt (by omega), Int.toNat_natCast,
    Nat.mod_eq_of_lt h]
  omega

/-- The count row at class `j`. -/
theorem countRow_apply (c : Dev nD) (j : Fin 1784) :
    (V m c main_v1 : FVec Ideal S1x1784 .f32) (ix2 0 j) = (countOf (argN m c) j : EReal) := by
  rw [V_v1, shapeCast_a_1a_apply]
  rfl

/-- The log-count row at class `j`. -/
theorem logRow_apply (c : Dev nD) (j : Fin 1784) :
    (V m c main_v3 : FVec Ideal S1x1784 .f32) (ix2 0 j) = Ideal.log (countOf (argN m c) j : EReal) := by
  rw [V_v3, shapeCast_a_1a_apply]
  rfl

/-- The target column at row `r`. -/
theorem tgtCol_apply (c : Dev nD) (r : Fin 2048) :
    (V m c main_v4 : IVec S2048x1 32) (ix2 r 0) = argT m c (ix1 r) := by
  rw [V_v4, shapeCast_a_a1_apply]

/-- The gathered count at row `r`: the count of the row's class. -/
theorem countCol_apply (c : Dev nD) (r : Fin 2048) (h : (argT m c (ix1 r)).toNat < 1784) :
    (V m c main_v12 : FVec Ideal S2048x1 .f32) (ix2 r 0) = (countOf (argN m c) (tgtOf (argT m c) r) : EReal) := by
  rw [V_v12, shapeCast_a_a1_apply, gather_apply _ _ r h]
  rfl

/-- The gathered log-count at row `r`: the logarithm of the count of the row's class. -/
theorem logCol_apply (c : Dev nD) (r : Fin 2048) (h : (argT m c (ix1 r)).toNat < 1784) :
    (V m c main_v20 : FVec Ideal S2048x1 .f32) (ix2 r 0) = Ideal.log (countOf (argN m c) (tgtOf (argT m c) r) : EReal) := by
  rw [V_v20, shapeCast_a_a1_apply, gather_apply _ _ r h]
  rfl

end Cert.Seesaw.Kernel

end
-- ==== Proof.KernelArray.lean ====
/-
  The kernel's output array and the program's result.

  The grid has eight points; point `t` works on rows `256 t … 256 t + 255`: the logits, target, gathered-count and
  gathered-log-count windows move with it, the count row and the log-count row are read whole at every point. By the row
  lemma (Proof/KernelRow.lean) and the windows' entries (Proof/KernelWindows.lean) the block that point `t` writes back is
  rows `256 t …` of the array of row losses; the eight blocks cover the 2048 rows, so the output array ends holding the
  row losses. The lines after the region sum that column (from `+0.0`) and divide by the batch size: the mean loss.
-/
import proofs.«410336_j2078764171361_3_alg».proof.Proof.Gen.KernelIdeal.Frame
import proofs.«410336_j2078764171361_3_alg».proof.Proof.KernelRow
import proofs.«410336_j2078764171361_3_alg».proof.Proof.KernelWindows
import Idealize.ShloMosaic.Lib.Pipeline.Value

set_option maxRecDepth 16384

noncomputable section

namespace Cert.Seesaw.Kernel

open Cert.KernelIdeal Cert.KernelIdeal.Gen Idealize.ShloMosaic Idealize.ShloMosaic.TcCoe Idealize.SL.Sem
open Idealize.ShloMosaic.StableHlo Idealize.ShloMosaic.ValueIdx Cert.Seesaw
open Cert.KernelIdeal.Facts

variable (m : (ℓ : Loc nD τ sig) → Buf (Elt Ideal) ℓ)

/-- Row `r`'s loss: the kernel's row formula at the row's shifted logits, the counts and the row's class. -/
def rowLoss (c : Dev nD) (r : Fin 2048) : EReal :=
  kernelRow expC epsC (shifted fun j => argX m c (ix2 r j)) (fun j => (countOf (argN m c) j : EReal)) (tgtOf (argT m c) r)

/-- The column of row losses. -/
def lossArr (c : Dev nD) : FVec Ideal S2048x1 .f32 := fun i => rowLoss m c ⟨(i 0).val, (i 0).isLt⟩

theorem hz : (![0, 0] : Fin 2 → Nat) = fun _ => 0 := funext fun a => by fin_cases a <;> rfl

/-- The printed index maps over the grid: the row windows are at block row `t`, the two whole rows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 8 := (show t.val < grid0.N from t.isLt).trans_eq N_0

/-- The array row of block row `p` at point `t`. -/
def rowOf (t : Fin cfg0.N) (p : Fin 256) : Fin 2048 := ⟨t.val * 256 + p.val, by have := t_lt t; have := p.isLt; omega⟩

theorem emb0 (t : Fin cfg0.N) (p : Fin 256) (j : Fin 1784) :
    ((cfg0.win 0).blk t).view.emb (ix2 p j) = ix2 (rowOf t p) j := by
  obtain ⟨e0, e1, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 1784 + 1 * j.val = j.val; omega

theorem emb1 (t : Fin cfg0.N) (p : Fin 256) (u : Fin 1) :
    ((cfg0.win 1).blk t).view.emb (ix2 p u) = ix2 (rowOf t p) u := by
  obtain ⟨-, -, e0, e1, -⟩ := idx_facts t
  funext a; apply Fin.ext
  match a with
  | ⟨0, _⟩ => show win0_1.index t (0 : Fin 2) * 256 + 1 * p.val = t.val * 256 + p.val; omega
  | ⟨1, _⟩ => show win0_1.index t (1 : Fin 2) * 1 + 1 * u.val = u.val; omega

theorem emb2 (t : Fin cfg0.N) (z : Fin 1) (j : Fin 1784) :
    ((cfg0.win 2).blk t).view.emb (ix2 z j) = ix2 z j := by
  obtain ⟨-, -, -, -, e0, e1, -⟩ := idx_facts t
  funext a; apply Fin.ext
  match a with
  | ⟨0, _⟩ => show win0_2.index t (0 : Fin 2) * 1 + 1 * z.val = z.val; omega
  | ⟨1, _⟩ => show win0_2.index t (1 : Fin 2) * 1784 + 1 * j.val = j.val; omega

theorem emb3 (t : Fin cfg0.N) (z : Fin 1) (j : Fin 1784) :
    ((cfg0.win 3).blk t).view.emb (ix2 z j) = ix2 z j := by
  obtain ⟨-, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 1784 + 1 * j.val = j.val; omega

theorem emb4 (t : Fin cfg0.N) (p : Fin 256) (u : Fin 1) :
    ((cfg0.win 4).blk t).view.emb (ix2 p u) = ix2 (rowOf t p) u := by
  obtain ⟨-, -, -, -, -, -, -, -, e0, e1, -⟩ := idx_facts t
  funext a; apply Fin.ext
  match a with
  | ⟨0, _⟩ => show win0_4.index t (0 : Fin 2) * 256 + 1 * p.val = t.val * 256 + p.val; omega
  | ⟨1, _⟩ => show win0_4.index t (1 : Fin 2) * 1 + 1 * u.val = u.val; omega

theorem emb5 (t : Fin cfg0.N) (p : Fin 256) (u : Fin 1) :
    ((cfg0.win 5).blk t).view.emb (ix2 p u) = ix2 (rowOf t p) u := by
  obtain ⟨-, -, -, -, -, -, -, -, -, -, e0, e1, -⟩ := idx_facts t
  funext a; apply Fin.ext
  match a with
  | ⟨0, _⟩ => show win0_5.index t (0 : Fin 2) * 256 + 1 * p.val = t.val * 256 + p.val; omega
  | ⟨1, _⟩ => show win0_5.index t (1 : Fin 2) * 1 + 1 * u.val = u.val; omega

theorem emb6 (t : Fin cfg0.N) (p : Fin 256) (u : Fin 1) :
    ((cfg0.win 6).blk t).view.emb (ix2 p u) = ix2 (rowOf t p) u := by
  obtain ⟨-, -, -, -, -, -, -, -, -, -, -, -, e0, e1⟩ := idx_facts t
  funext a; apply Fin.ext
  match a with
  | ⟨0, _⟩ => show win0_6.index t (0 : Fin 2) * 256 + 1 * p.val = t.val * 256 + p.val; omega
  | ⟨1, _⟩ => show win0_6.index t (1 : Fin 2) * 1 + 1 * u.val = u.val; omega

/-! ## The input blocks at point `t`, entry by entry -/

theorem blk0_apply (c : Dev nD) (t : Fin cfg0.N) (p : Fin 256) (j : Fin 1784) :
    iblk m c 0 t (ix2 p j) = argX m c (ix2 (rowOf t p) j) := by
  show V m c main_arg0 (((cfg0.win 0).blk t).view.emb (ix2 p j)) = _
  rw [emb0, V_main_arg0]

theorem blk1_apply (c : Dev nD) (t : Fin cfg0.N) (p : Fin 256) :
    iblk m c 1 t (ix2 p 0) = argT m c (ix1 (rowOf t p)) := by
  show V m c main_v4 (((cfg0.win 1).blk t).view.emb (ix2 p 0)) = _
  rw [emb1]
  exact tgtCol_apply m c (rowOf t p)

theorem blk2_apply (c : Dev nD) (t : Fin cfg0.N) (j : Fin 1784) :
    iblk m c 2 t (ix2 0 j) = (countOf (argN m c) j : EReal) := by
  show V m c main_v1 (((cfg0.win 2).blk t).view.emb (ix2 0 j)) = _
  rw [emb2]
  exact countRow_apply m c j

theorem blk3_apply (c : Dev nD) (t : Fin cfg0.N) (j : Fin 1784) :
    iblk m c 3 t (ix2 0 j) = Ideal.log (countOf (argN m c) j : EReal) := by
  show V m c main_v3 (((cfg0.win 3).blk t).view.emb (ix2 0 j)) = _
  rw [emb3]
  exact logRow_apply m c j

theorem blk4_apply (c : Dev nD) (t : Fin cfg0.N) (p : Fin 256) (h : (argT m c (ix1 (rowOf t p))).toNat < 1784) :
    iblk m c 4 t (ix2 p 0) = (countOf (argN m c) (tgtOf (argT m c) (rowOf t p)) : EReal) := by
  show V m c main_v12 (((cfg0.win 4).blk t).view.emb (ix2 p 0)) = _
  rw [emb4]
  exact countCol_apply m c (rowOf t p) h

theorem blk5_apply (c : Dev nD) (t : Fin cfg0.N) (p : Fin 256) (h : (argT m c (ix1 (rowOf t p))).toNat < 1784) :
    iblk m c 5 t (ix2 p 0) = Ideal.log (countOf (argN m c) (tgtOf (argT m c) (rowOf t p)) : EReal) := by
  show V m c main_v20 (((cfg0.win 5).blk t).view.emb (ix2 p 0)) = _
  rw [emb5]
  exact logCol_apply m c (rowOf t p) h

/-! ## What a point writes back, the cover, and the array after the run -/

/-- Point `t` writes back rows `256 t …` of the column of row losses. -/
theorem flushed_eq (c : Dev nD) (hT : ∀ r : Fin 2048, (argT m c (ix1 r)).toNat < 1784) (t : Fin cfg0.N) :
    (dats m 0 c).flushed 6 t = ((cfg0.win 6).blk t).view.read (Elt Ideal) (lossArr m c) := by
  show (cfg0.win 6).cut (grid0.coords t) ((dats m 0 c).after 6 t) = _
  rw [after0_6]
  unfold out0_6
  rw [View.canon_unit_zero hz]
  simp only [View.ld_unit_zero (S := S256x1784) hz, View.ld_unit_zero (S := S256x1) hz, View.ld_unit_zero (S := S1x1784) hz]
  funext y
  obtain ⟨p, u, rfl⟩ : ∃ (p : Fin 256) (u : Fin 1), y = ix2 p u := ⟨y 0, y 1, eq_ix2 y⟩
  show k0_pay1 (F := Ideal) (k0_pay2 (F := Ideal) (iblk m c 0 t) (iblk m c 1 t) (iblk m c 2 t) (iblk m c 3 t) (iblk m c 4 t)
      (iblk m c 5 t)) (ix2 p u) = lossArr m c (((cfg0.win 6).blk t).view.emb (ix2 p u))
  rw [emb6]
  refine (body_row (iblk m c 0 t) (iblk m c 1 t) (iblk m c 2 t) (iblk m c 3 t) (iblk m c 4 t) (iblk m c 5 t) p u
    (fun j => (countOf (argN m c) j : EReal)) (tgtOf (argT m c) (rowOf t p))
    ((blk1_apply m c t p).trans (word_tgtOf (argT m c) (rowOf t p) (hT _)))
    (blk2_apply m c t) (blk3_apply m c t) (blk4_apply m c t p (hT _)) (blk5_apply m c t p (hT _))).trans ?_
  show _ = rowLoss m c _
  unfold rowLoss
  congr 2
  funext j
  exact blk0_apply m c t p j

theorem mem_blk6 (t : Fin cfg0.N) (i : S2048x1.Idx) :
    i ∈ ((cfg0.win 6).blk t).view.set ↔ ∀ a : Fin 2, win0_6.index t a * S256x1.size a ≤ (i a).val
      ∧ (i a).val < win0_6.index t a * S256x1.size a + S256x1.size a := by
  show i ∈ ((View.whole main_v21).slice (win0_6.rect t)).set ↔ _
  rw [View.set_slice_whole, Rect.mem_set_unit]
  exact Iff.rfl

/-- Row `r` is in the block of point `r / 256`. -/
theorem covered (i : S2048x1.Idx) :
    ∃ t : Fin cfg0.N, (cfg0.win 6).flush t = true ∧ i ∈ ((cfg0.win 6).blk t).view.set := by
  have hi0 : (i 0).val < 2048 := (i 0).isLt
  have hi1 : (i 1).val < 1 := (i 1).isLt
  have ht : (i 0).val / 256 < grid0.N := by rw [N_0]; omega
  refine ⟨⟨(i 0).val / 256, ht⟩, flush0_6 _, ?_⟩
  rw [mem_blk6]
  obtain ⟨-, -, -, -, -, -, -, -, -, -, -, -, e0, e1⟩ := idx_facts ⟨(i 0).val / 256, ht⟩
  intro a
  match a with
  | ⟨0, _⟩ =>
    show win0_6.index ⟨(i 0).val / 256, ht⟩ (0 : Fin 2) * 256 ≤ (i 0).val
      ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 1 ≤ (i 1).val
      ∧ (i 1).val < win0_6.index ⟨(i 0).val / 256, ht⟩ (1 : Fin 2) * 1 + 1
    rw [e1]; omega

/-- The output array after the run is the column of row losses. -/
theorem final (c : Dev nD) (hT : ∀ r : Fin 2048, (argT m c (ix1 r)).toNat < 1784) :
    (dats m 0 c).arrAt 6 cfg0.N = lossArr m c :=
  (dats m 0 c).arrAt_eq_of_cover 6 (lossArr m c) (fun t _ => flushed_eq m c hT t) covered

end Cert.Seesaw.Kernel

end
-- ==== Proof.KernelRun.lean ====
/-
  The kernel program's run, with its result named.

  After the region the program sums the column of row losses from `+0.0` and divides by the batch size; the column is
  the output array after the run (Proof/KernelArray.lean). A sum over the [2048, 1] column is the sum over its 2048 rows,
  so the result is the mean loss of the three arguments (Proof/Loss.lean). The frame run's post gives the result buffer
  and the unchanged arguments.
-/
import proofs.«410336_j2078764171361_3_alg».proof.Proof.KernelArray
import Idealize.ShloMosaic.PureOps.Ideal.Laws

set_option maxRecDepth 16384

noncomputable section

namespace Cert.Seesaw.Kernel

open Cert.KernelIdeal Cert.KernelIdeal.Gen Idealize.ShloMosaic Idealize.ShloMosaic.TcCoe Idealize.SL.Sem
open Idealize.ShloMosaic.StableHlo Idealize.ShloMosaic.ValueIdx Cert.Seesaw
open Cert.KernelIdeal.Facts

variable (m : (ℓ : Loc nD τ sig) → Buf (Elt Ideal) ℓ)

/-- The sum of the column of row losses is the sum of the row losses. -/
theorem sum_lossArr (c : Dev nD) : ∑ i : S2048x1.Idx, lossArr m c i = ∑ b : Fin 2048, rowLoss m c b := by
  rw [sum_idx2]
  refine Finset.sum_congr rfl fun b _ => ?_
  rw [Fin.sum_univ_one]
  rfl

/-- The lines after the region leave the mean loss in the result buffer. -/
theorem tail_eq (c : Dev nD) (hT : ∀ r : Fin 2048, (argT m c (ix1 r)).toNat < 1784) :
    Pipeline.afterTail₀ cfgs (dats m) 0 (V0 m) [hostOps1] c main_v23
      = fun _ => meanLoss (argX m c) (argT m c) (argN m c) := by
  unfold Pipeline.afterTail₀
  show StableHlo.after hostOps1 _ (Proc.devRef .tc main_v23) = _
  after_results
  rw [show Pipeline.withArrays (cfgs 0).spec c (V0 m c) (fun w => (dats m 0 c).arrAt w (cfgs 0).N) (Proc.devRef .tc main_v21)
      = lossArr m c from (Pipeline.withArrays_arr spec0 launch0.win.arr_inj c _ _ 6).trans (final m c hT)]
  funext i
  have hs : Host.reduceAdd (F := Ideal) (lossArr m c) (constant S_ .f32 0x00000000#32) reducesTo_S2048x1_S_d0_1 h_S_ i
      = Ideal.ofBits .f32 0x00000000#32 + ∑ j : S2048x1.Idx, lossArr m c j := by
    simp only [Host.reduceAdd, Ideal.hostReduceAdd_def]
    exact Ideal.hostReduceAdd_total reducesTo_S2048x1_S_d0_1 (fun b => b.elim0) (lossArr m c) _ i
  show Ideal.div (Host.reduceAdd (F := Ideal) (lossArr m c) (constant S_ .f32 0x00000000#32) reducesTo_S2048x1_S_d0_1 h_S_ i)
      (Ideal.ofBits .f32 0x45000000#32) = _
  rw [hs, ofBits_zero, zero_add, sum_lossArr]
  rfl

/-- Every weakly fair execution of the kernel program terminates with the mean loss in its result buffer and its
    arguments unchanged, when every target word is a class index. -/
theorem run (ρ : Dev nD → PrngReg) (hT : ∀ (c : Dev nD) (r : Fin 2048), (argT m c (ix1 r)).toNat < 1784) :
    θ_run defs (onTc (τ := τ) (main (F := Ideal))) ⟨m, fun _ => 0, ρ⟩ (fun r => ∀ c : Dev nD,
      r.2.mem ((c.tc : Thread nD τ).loc main_v23) = (fun _ => meanLoss (argX m c) (argT m c) (argN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of main_v23 (by decide) (by decide))).trans (tail_eq m c (hT c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Seesaw.Kernel

end
-- ==== Proof.Claims.lean ====
/-
  The five claims.

  The three frames are the generated frame runs (the reference's is its run with the result dropped); the idealization
  rewrote nothing, so `preserves` is trivial. For the value claim the precondition gives, on every core, that each target
  word is a class index and each count is non-negative (Proof/PreFacts.lean); under these the kernel program ends with the
  mean seesaw loss of its arguments in its result buffer (Proof/KernelRun.lean) and the reference's last stage is the same
  mean loss of the same arguments (Proof/RefValue.lean, through the row identity of Proof/RowIdentity.lean).
-/
import proofs.«410336_j2078764171361_3_alg».proof.Defs
import proofs.«410336_j2078764171361_3_alg».proof.Proof.Gen.Kernel.Frame
import proofs.«410336_j2078764171361_3_alg».proof.Proof.Gen.KernelIdeal.Frame
import proofs.«410336_j2078764171361_3_alg».proof.Proof.Gen.ReferenceIdeal
import proofs.«410336_j2078764171361_3_alg».proof.Proof.Gen.Pre_finite_inputs
import proofs.«410336_j2078764171361_3_alg».proof.Proof.RefRun
import proofs.«410336_j2078764171361_3_alg».proof.Proof.RefRead
import proofs.«410336_j2078764171361_3_alg».proof.Proof.PreFacts
import proofs.«410336_j2078764171361_3_alg».proof.Proof.RefValue
import proofs.«410336_j2078764171361_3_alg».proof.Proof.KernelRun

noncomputable section

namespace Cert.Proof.Claims

open Idealize.ShloMosaic Idealize.ShloMosaic.TcCoe Idealize.SL.Sem Idealize.ShloMosaic.ValueIdx Cert.Seesaw

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean seesaw loss of the shared arguments. -/
theorem algebraic : Cert.algebraic_KernelIdeal_ReferenceIdeal := by
  intro m ρ m' ρ' hpre hagree
  have hT : ∀ (c : Dev Cert.KernelIdeal.nD) (r : Fin 2048), (Kernel.argT m c (ix1 r)).toNat < 1784 :=
    fun c r => targets_lt _ _ _ (hpre c) r
  have hN : ∀ (c : Dev Cert.KernelIdeal.nD) (j : Fin 1784), 0 ≤ (Kernel.argN m c (ix1 j)).toInt :=
    fun c j => counts_nonneg _ _ _ (hpre c) j
  refine ⟨fun c _ => meanLoss (Kernel.argX m c) (Kernel.argT m c) (Kernel.argN m c), Kernel.run m ρ hT, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2]
  exact Ref.ref_result _ _ _ (hT c) (hN c)

end Cert.Proof.Claims

end
-- ==== Proof.lean ====
/-
  A seesaw loss: the kernel against its jnp reference, equal over the extended reals.

  For logits `x[b, j]` shifted by their row maximum, targets `t_b` and class counts `n_j`, the reference forms the seesaw
  matrix `s[i, j] = (n_j / n_i)^p` where `n_j < n_i` and `1` elsewhere, the denominators
  `∑_j (1 - onehot[b, j]) · exp x[b, j] · s[i, j] + exp x[b, i]`, `σ = exp x / (denominator + ε)`, and the loss
  `∑_i -onehot[b, i] · log (σ[b, i] + ε)`, averaged over the rows. The kernel only ever needs the target's row of the
  matrix: it folds the factor into the exponent, `exp (x[b, j] + p · (log n_j - log n_{t_b}))` where `n_j < n_{t_b}`, sums
  over `j`, picks the target's term by a masked sum and takes `0 - log (σ + ε)` once per row.

  Under the precondition — finite logits, every target a class index `0 ≤ t_b < 1784`, every count non-negative — the two
  agree exactly on the extended reals: `exp (a + b) = exp a · exp b` everywhere, `(a / b)^p = exp (p (log a - log b))` for
  `0 ≤ a < b` (at `a = 0` both sides are `0`), the one-hot sum keeps the target's entry only, and the masked term of the
  reference's contraction at the target vanishes while the kernel's weight there is `exp x[b, t_b]` itself
  (Proof/RowIdentity.lean). Proof/Loss.lean names the common value; Proof/KernelRow.lean, KernelWindows.lean, KernelArray.lean and
  KernelRun.lean read it off the kernel program; Proof/RefValue.lean reads it off the reference's stages;
  Proof/PreFacts.lean reads the integer facts off the precondition; Proof/Claims.lean states the five claims.
-/
import proofs.«410336_j2078764171361_3_alg».proof.Defs
import proofs.«410336_j2078764171361_3_alg».proof.Proof.Gen.Kernel
import proofs.«410336_j2078764171361_3_alg».proof.Proof.Gen.KernelIdeal
import proofs.«410336_j2078764171361_3_alg».proof.Proof.Gen.ReferenceIdeal
import proofs.«410336_j2078764171361_3_alg».proof.Proof.Gen.Pre_finite_inputs
import proofs.«410336_j2078764171361_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
